-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S4096x4096 .f32) (main_arg2 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩
abbrev S1024x1024 : Shape := ⟨2, ![1024, 1024]⟩
abbrev S1x1024 : Shape := ⟨2, ![1, 1024]⟩

abbrev nBuf : Space → Nat
  | .hbm => 5
  | .vmem => 9
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S1x4096, .f32⟩
  | .hbm, ⟨4, _⟩ => ⟨S8192x4096, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v21 : BitVec 1 := Scalar.cmpi .eq arg2 c3_i32
  let v22 : BitVec 32 := Scalar.extui v21
  let c0_i32_14 : BitVec 32 := 0#32
  let v23 : BitVec 1 := Scalar.cmpi .ne v22 c0_i32_14
  v23

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .f32 = 32 ∨ (Rect.block (s := S8192x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .f32 = 32 ∨ (Rect.block (s := S4096x4096) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x4096.size a
  hwx0_3 : ∀ i : grid0.Coords, EltTy.bits .f32 = 32 ∨ (Rect.block (s := S8192x4096) S1024x1024.size (cc0_transform_3 i) (hinb0_3 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩
abbrev S1x4096 : Shape := ⟨2, ![1, 4096]⟩

abbrev nBuf : Space → Nat
  | .hbm => 23
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S_, .f32⟩
  | .hbm, ⟨4, _⟩ => ⟨S8192x4096, .f32⟩
  | .hbm, ⟨5, _⟩ => ⟨S8192x4096, .i1⟩
  | .hbm, ⟨6, _⟩ => ⟨S_, .f32⟩
  | .hbm, ⟨7, _⟩ => ⟨S_, .f32⟩
  | .hbm, ⟨8, _⟩ => ⟨S8192x4096, .f32⟩
  | .hbm, ⟨9, _⟩ => ⟨S8192x4096, .f32⟩
  | .hbm, ⟨10, _⟩ => ⟨S8192x4096, .f32⟩
  | .hbm, ⟨11, _⟩ => ⟨S_, .f32⟩
  | .hbm, ⟨12, _⟩ => ⟨S4096x4096, .f32⟩
  | .hbm, ⟨13, _⟩ => ⟨S4096x4096, .i1⟩
  | .hbm, ⟨14, _⟩ => ⟨S_, .f32⟩
  | .hbm, ⟨15, _⟩ => ⟨S_, .f32⟩
  | .hbm, ⟨16, _⟩ => ⟨S4096x4096, .f32⟩
  | .hbm, ⟨17, _⟩ => ⟨S4096x4096, .f32⟩
  | .hbm, ⟨18, _⟩ => ⟨S4096x4096, .f32⟩
  | .hbm, ⟨19, _⟩ => ⟨S8192x4096, .f32⟩
  | .hbm, ⟨20, _⟩ => ⟨S1x4096, .f32⟩
  | .hbm, ⟨21, _⟩ => ⟨S8192x4096, .f32⟩
  | .hbm, ⟨22, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_cst_1 : Ref sig .tc := ⟨.hbm, 7, rfl⟩
abbrev main_call0_v0 : Ref sig .tc := ⟨.hbm, 8, rfl⟩
abbrev main_call0_v1 : Ref sig .tc := ⟨.hbm, 9, rfl⟩
abbrev main_v2 : Ref sig .tc := ⟨.hbm, 10, rfl⟩
abbrev main_cst_2 : Ref sig .tc := ⟨.hbm, 11, rfl⟩
abbrev main_v3 : Ref sig .tc := ⟨.hbm, 12, rfl⟩
abbrev main_v4 : Ref sig .tc := ⟨.hbm, 13, rfl⟩
abbrev main_cst_3 : Ref sig .tc := ⟨.hbm, 14, rfl⟩
abbrev main_cst_4 : Ref sig .tc := ⟨.hbm, 15, rfl⟩
abbrev main_call1_v0 : Ref sig .tc := ⟨.hbm, 16, rfl⟩
abbrev main_call1_v1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩

abbrev nD : Nat := 1
abbrev τ : Topo := Topo.v7x

variable {F : FTy → Type} [FloatOps F]

class Facts₀ : Prop where
  bcast_S_S8192x4096 : S_.BroadcastsInDim S8192x4096 (![] : Fin 0 → Fin S8192x4096.rank)
  bcast_S_S4096x4096 : S_.BroadcastsInDim S4096x4096 (![] : Fin 0 → Fin S4096x4096.rank)
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.Pieces.lean ====
/-
  What the kernel body leaves behind, case by case, as plain terms of the blocks it loads.

  The body keeps a running block in a scratch buffer. At the first step of a contraction run it stores the zero block,
  reads it back and adds the step's product block; at the later steps it adds the step's product block to what the
  step before left; at the last step it also stores the running block plus the bias row into the output block.
  Each lemma reads the stores one case performs back as ONE term: the running block after the step (`k0_pay2`), and
  at the last step the output block (`k0_pay3` of the running block and the bias row).
-/
import proofs.«159764_j19516331393233_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem
open Idealize.ShloMosaic.Tactic

variable {F : FTy → Type} [FloatOps F]

theorem hz : (![0, 0] : Fin 2 → Nat) = fun _ => 0 := funext fun a => by fin_cases a <;> rfl

/-- The first step of a run: the zero block is stored and read back, so the running block becomes the zero block plus
    the step's product block. -/
theorem scratch_A (c : Dev nD) (i : grid0.Coords) (a3 : Memref sig .tc .vmem S1024x1024 .f32) (h3 : a3.IsWhole)
    (a4 : Memref sig .tc .vmem S1024x1024 .f32) (h4 : a4.IsWhole) (a5 : Memref sig .tc .vmem S1x1024 .f32) (h5 : a5.IsWhole)
    (a6 : Memref sig .tc .vmem S1024x1024 .f32) (h6 : a6.IsWhole) (a7 : Memref sig .tc .vmem S1024x1024 .f32) (h7 : a7.IsWhole)
    (hc0 : cond0_0 i) (hc1 : ¬cond0_1 i)
    (x0 x1 : Vec F S1024x1024 .f32) (x2 : Vec F S1x1024 .f32) :
    sout0_A_0 c i a3 h3 a4 h4 a5 h5 a6 h6 a7 h7 hc0 hc1 x0 x1 x2 = k0_pay2 x0 x1 (k0_pay1 (F := F)) := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S1024x1024) hz]

/-- A later step of a run that is not the last: the running block becomes itself plus the step's product block. -/
theorem scratch_B (c : Dev nD) (i : grid0.Coords) (a3 : Memref sig .tc .vmem S1024x1024 .f32) (h3 : a3.IsWhole)
    (a4 : Memref sig .tc .vmem S1024x1024 .f32) (h4 : a4.IsWhole) (a5 : Memref sig .tc .vmem S1x1024 .f32) (h5 : a5.IsWhole)
    (a6 : Memref sig .tc .vmem S1024x1024 .f32) (h6 : a6.IsWhole) (a7 : Memref sig .tc .vmem S1024x1024 .f32) (h7 : a7.IsWhole)
    (hc0 : ¬cond0_0 i) (hc1 : ¬cond0_1 i)
    (x0 x1 : Vec F S1024x1024 .f32) (x2 : Vec F S1x1024 .f32) (xs0 : Vec F S1024x1024 .f32) :
    sout0_B_0 c i a3 h3 a4 h4 a5 h5 a6 h6 a7 h7 hc0 hc1 x0 x1 x2 xs0 = k0_pay2 x0 x1 xs0 := by
  unfold sout0_B_0
  rw [View.read_writes_eq_canon _ _ _ (scover0_B_0 c i a3 h3 a4 h4 a5 h5 a6 h6 a7 h7 hc0 hc1 x0 x1 x2 xs0)]
  unfold kernelRun0_B
  dsimp only
  sl_unfold_words
  rw [View.canon_unit_zero hz]
  simp only [View.readAt_eq_ld, h3.read_unread, h4.read_unread, h7.read_unread, View.ld_unit_zero (S := S1024x1024) hz]

/-- The last step of a run: the running block is updated as at the other later steps, -/
theorem scratch_C (c : Dev nD) (i : grid0.Coords) (a3 : Memref sig .tc .vmem S1024x1024 .f32) (h3 : a3.IsWhole)
    (a4 : Memref sig .tc .vmem S1024x1024 .f32) (h4 : a4.IsWhole) (a5 : Memref sig .tc .vmem S1x1024 .f32) (h5 : a5.IsWhole)
    (a6 : Memref sig .tc .vmem S1024x1024 .f32) (h6 : a6.IsWhole) (a7 : Memref sig .tc .vmem S1024x1024 .f32) (h7 : a7.IsWhole)
    (hc0 : ¬cond0_0 i) (hc1 : cond0_1 i)
    (x0 x1 : Vec F S1024x1024 .f32) (x2 : Vec F S1x1024 .f32) (xs0 : Vec F S1024x1024 .f32) :
    sout0_C_0 c i a3 h3 a4 h4 a5 h5 a6 h6 a7 h7 hc0 hc1 x0 x1 x2 xs0 = k0_pay2 x0 x1 xs0 := by
  unfold sout0_C_0
  rw [View.read_writes_eq_canon _ _ _ (scover0_C_0 c i a3 h3 a4 h4 a5 h5 a6 h6 a7 h7 hc0 hc1 x0 x1 x2 xs0)]
  unfold kernelRun0_C
  dsimp only
  sl_unfold_words
  rw [View.canon_unit_zero hz]
  simp only [View.readAt_eq_ld, h3.read_unread, h4.read_unread, h7.read_unread, View.ld_unit_zero (S := S1024x1024) hz]

/-- and the output block is stored: the updated running block, read back, plus the bias row spread over the rows. -/
theorem out_C (c : Dev nD) (i : grid0.Coords) (a3 : Memref sig .tc .vmem S1024x1024 .f32) (h3 : a3.IsWhole)
    (a4 : Memref sig .tc .vmem S1024x1024 .f32) (h4 : a4.IsWhole) (a5 : Memref sig .tc .vmem S1x1024 .f32) (h5 : a5.IsWhole)
    (a6 : Memref sig .tc .vmem S1024x1024 .f32) (h6 : a6.IsWhole) (a7 : Memref sig .tc .vmem S1024x1024 .f32) (h7 : a7.IsWhole)
    (hc0 : ¬cond0_0 i) (hc1 : cond0_1 i)
    (x0 x1 : Vec F S1024x1024 .f32) (x2 : Vec F S1x1024 .f32) (xs0 : Vec F S1024x1024 .f32) :
    out0_C_3 c i a3 h3 a4 h4 a5 h5 a6 h6 a7 h7 hc0 hc1 x0 x1 x2 xs0 = k0_pay3 (k0_pay2 x0 x1 xs0) x2 := by
  unfold out0_C_3
  rw [View.read_writes_eq_canon _ _ _ (cover0_C_3 c i a3 h3 a4 h4 a5 h5 a6 h6 a7 h7 hc0 hc1 x0 x1 x2 xs0)]
  unfold kernelRun0_C
  dsimp only
  sl_unfold_words
  rw [View.canon_unit_zero hz, View.readCov_unit_zero (S := S1024x1024) _ hz]
  simp only [View.readAt_eq_ld, h3.read_unread, h4.read_unread, h5.read_unread, h7.read_unread,
    View.ld_unit_zero (S := S1024x1024) hz, View.ld_unit_zero (S := S1x1024) hz]

end Cert.KernelIdeal.Pieces

end
-- ==== Proof.LibBlockSum.lean ====
/-
  A finite sum taken block by block.

  `N = a * b` positions are cut into `a` consecutive blocks of `b` positions each: position `q` of block `t` is
  position `t * b + q` (`blockRow`). In any commutative additive monoid the sum of a function over all `N` positions is
  the sum, over the blocks, of its sums over each block's positions (`sum_fin_blocks`): the bijection
  `Fin a × Fin b ≃ Fin (a * b)`, `(t, q) ↦ q + b * t`. Applied twice it cuts the rows of a row-major matrix into row
  blocks and each row into its entries. Nothing is asked of the summands: on the extended reals, whose addition is
  commutative and associative at the infinities too, this re-groups a sum of any values. Generic in the sizes and in the
  monoid. Last, a reshape re-arranges a vector's entries bijectively, so it does not change their sum (`sum_shapeCast`).
-/
import Idealize.ShloMosaic.Lib.ValueIdx
import Mathlib.Algebra.BigOperators.Fin
import Mathlib.Logic.Equiv.Fin.Basic

open scoped BigOperators

namespace Cert.Lib.BlockSum

open Idealize.ShloMosaic Idealize.ShloMosaic.ValueIdx

/-- Row `q` of row block `t`, among the `N = a * b` rows: row `t * b + q`. -/
def blockRow {N a b : ℕ} (hN : N = a * b) (t : Fin a) (q : Fin b) : Fin N :=
  ⟨t.val * b + q.val, by
    subst hN
    calc t.val * b + q.val < t.val * b + b := Nat.add_lt_add_left q.isLt _
      _ = (t.val + 1) * b := (Nat.succ_mul _ _).symm
      _ ≤ a * b := Nat.mul_le_mul_right _ t.isLt⟩

@[simp] theorem blockRow_val {N a b : ℕ} (hN : N = a * b) (t : Fin a) (q : Fin b) :
    (blockRow hN t q).val = t.val * b + q.val := rfl

/-- A sum over `a * b` positions is the sum over the `a` blocks of the sums over each block's `b` positions. -/
theorem sum_fin_blocks {M : Type*} [AddCommMonoid M] {N a b : ℕ} (hN : N = a * b) (f : Fin N → M) :
    ∑ r, f r = ∑ t : Fin a, ∑ q : Fin b, f (blockRow hN t q) := by
  subst hN
  rw [← Equiv.sum_comp finProdFinEquiv f, Fintype.sum_prod_type]
  refine Finset.sum_congr rfl fun t _ => Finset.sum_congr rfl fun q _ => congrArg f (Fin.ext ?_)
  show q.val + b * t.val = t.val * b + q.val
  rw [Nat.mul_comm, Nat.add_comm]

/-- A reshape only re-arranges: the sum over a reshaped vector's entries is the sum over the vector's entries (each entry of
    the result is the operand's entry at the same row-major position, a bijection of the two index sets). -/
theorem sum_shapeCast {M : Type} [AddCommMonoid M] {s t : Shape} (x : s.Idx → M) (h : s.ShapeCasts t) :
    ∑ j, shapeCast t x h j = ∑ k, x k := by
  unfold shapeCast
  exact Equiv.sum_comp (Shape.reshapeEquiv h) x

end Cert.Lib.BlockSum
-- ==== Proof.Spec.lean ====
/-
  The binarised linear map, as one function of its three arrays, and the two facts about it that do not depend on
  either program.

  `bin a` is `+1` for `a` above zero and `-1` otherwise. For `x : [8192, 4096]`, `w : [4096, 4096]` and a bias row
  `b : [1, 4096]` the result at `(n, o)` is `(∑ k, bin (x n k) * bin (w o k)) + b o`: row `n` of the binarised `x` against
  row `o` of the binarised `w`, plus the bias of column `o`.

  * A select between the words of `1.0` and `-1.0` (in either float format) on the test "above the zero word" is `bin`.
  * The contraction over 4096 positions is the sum over its four consecutive quarters of 1024 positions each, in any
    grouping: addition of extended reals is commutative and associative, so no finiteness is asked of the summands.
-/
import Idealize.ShloMosaic.Lib.ValueIdx
import Idealize.ShloMosaic.PureOps.Ideal.Laws
import proofs.«159764_j19516331393233_1_alg».proof.Proof.LibBlockSum

noncomputable section

open scoped BigOperators

namespace Cert.BinLinear

open Idealize.ShloMosaic Idealize.ShloMosaic.ValueIdx

/-- `+1` above zero; `-1` at zero, below it, and at `⊥`. -/
def bin (a : EReal) : EReal := if 0 < a then 1 else -1

/-- A select between two values that denote `1` and `-1`, on the comparison "greater than" against a value that denotes
    zero, is `bin`. -/
theorem select_gt_eq_bin (a z p n : EReal) (hz : z = 0) (hp : p = 1) (hn : n = -1) :
    Scalar.select (Ideal.cmp .ogt a z) p n = bin a := by
  subst hz hp hn
  unfold Scalar.select Ideal.cmp bin
  by_cases h : (0 : EReal) < a <;> simp [h]

/-- The f32 words of `1.0` and `-1.0` select to `bin`. -/
theorem select_f32 (a : EReal) :
    Scalar.select (Ideal.cmp .ogt a (Ideal.ofBits .f32 0x00000000#32)) (Ideal.ofBits .f32 0x3F800000#32)
      (Ideal.ofBits .f32 0xBF800000#32) = bin a :=
  select_gt_eq_bin a _ _ _ Ideal.ofBits_zero_f32 (IdealRules.sign_bit.ideal_onePat .f32)
    (IdealRules.sign_bit.ideal_negOnePat .f32)

/-- The bf16 words of `1.0` and `-1.0` select to `bin` as well: a change of float format changes nothing. -/
theorem select_bf16 (a : EReal) :
    Scalar.select (Ideal.cmp .ogt a (Ideal.ofBits .f32 0x00000000#32)) (Ideal.ofBits .bf16 0x3F80#16)
      (Ideal.ofBits .bf16 0xBF80#16) = bin a :=
  select_gt_eq_bin a _ _ _ Ideal.ofBits_zero_f32 (IdealRules.sign_bit.ideal_onePat .bf16)
    (IdealRules.sign_bit.ideal_negOnePat .bf16)

/-- The result at row `n`, column `o`. -/
def entry (x : (⟨2, ![8192, 4096]⟩ : Shape).Idx → EReal) (w : (⟨2, ![4096, 4096]⟩ : Shape).Idx → EReal)
    (b : (⟨2, ![1, 4096]⟩ : Shape).Idx → EReal) (n : Fin 8192) (o : Fin 4096) : EReal :=
  (∑ k : Fin 4096, bin (x (ix2 n k)) * bin (w (ix2 o k))) + b (ix2 (0 : Fin 1) o)

/-- The whole result array. -/
def result (x : (⟨2, ![8192, 4096]⟩ : Shape).Idx → EReal) (w : (⟨2, ![4096, 4096]⟩ : Shape).Idx → EReal)
    (b : (⟨2, ![1, 4096]⟩ : Shape).Idx → EReal) : (⟨2, ![8192, 4096]⟩ : Shape).Idx → EReal :=
  fun i => entry x w b (i 0) (i 1)

/-- A sum over 4096 positions is the sum, over the quarters `s = 0 … 3`, of the sums over each quarter's 1024 positions
    `1024 * s + q`, for a summand given on all naturals. -/
theorem sum_quarters (f : ℕ → EReal) :
    ∑ k : Fin 4096, f k.val = ∑ s ∈ Finset.range 4, ∑ q : Fin 1024, f (s * 1024 + q.val) := by
  rw [Cert.Lib.BlockSum.sum_fin_blocks (N := 4096) (a := 4) (b := 1024) rfl (fun k => f k.val), Finset.sum_range]
  rfl

end Cert.BinLinear

end
-- ==== Proof.Payload.lean ====
/-
  The body's three stored values, read at one entry of a block, over the extended reals.

  * The reset value is the zero block.
  * The update value at `(p, q)` is the running block's entry plus the product block's: the sum over the block's 1024
    contraction positions `k` of `bin (x p k) * bin (w q k)` — both operands are contracted along their second axis,
    the selects between the bf16 words of `1.0` and `-1.0` are `bin`, and the matrix product into the zero accumulator
    is the plain sum of products.
  * The output value at `(p, q)` is the running block's entry plus the bias row's entry `q`.
-/
import proofs.«159764_j19516331393233_1_alg».proof.Proof.Gen.KernelIdeal.Skeleton
import proofs.«159764_j19516331393233_1_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.Payload

open Cert.KernelIdeal Cert.KernelIdeal.Gen Idealize.ShloMosaic Idealize.ShloMosaic.ValueIdx
open Cert.BinLinear

/-- The product block of two loaded blocks at `(p, q)`: row `p` of the binarised first against row `q` of the binarised
    second. -/
def prodBlock (x0 x1 : S1024x1024.Idx → EReal) (p q : Fin 1024) : EReal :=
  ∑ k : Fin 1024, bin (x0 (ix2 p k)) * bin (x1 (ix2 q k))

/-! The contraction's index bookkeeping: on the free axis an operand is read at the output's coordinate, on the
    contracted axis at the contraction position. -/

theorem lhs_axis0 (i : S1024x1024.Idx) (q : dot_S1024x1024_S1024x1024_S1024x1024_1_1_0_0_n_n.contr.Idx) :
    (dot_S1024x1024_S1024x1024_S1024x1024_1_1_0_0_n_n.lhsIdx i q 0).val = (i 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
theorem lhs_axis1 (i : S1024x1024.Idx) (q : dot_S1024x1024_S1024x1024_S1024x1024_1_1_0_0_n_n.contr.Idx) :
    (dot_S1024x1024_S1024x1024_S1024x1024_1_1_0_0_n_n.lhsIdx i q 1).val = (q ⟨0, by decide⟩).val :=
  dot_S1024x1024_S1024x1024_S1024x1024_1_1_0_0_n_n.lhsIdx_val_of_single rfl i q
theorem rhs_axis0 (i : S1024x1024.Idx) (q : dot_S1024x1024_S1024x1024_S1024x1024_1_1_0_0_n_n.contr.Idx) :
    (dot_S1024x1024_S1024x1024_S1024x1024_1_1_0_0_n_n.rhsIdx i q 0).val = (i 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
theorem rhs_axis1 (i : S1024x1024.Idx) (q : dot_S1024x1024_S1024x1024_S1024x1024_1_1_0_0_n_n.contr.Idx) :
    (dot_S1024x1024_S1024x1024_S1024x1024_1_1_0_0_n_n.rhsIdx i q 1).val = (q ⟨0, by decide⟩).val :=
  dot_S1024x1024_S1024x1024_S1024x1024_1_1_0_0_n_n.rhsIdx_val_of_single rfl i q

/-- The matrix product into the zero accumulator at `(p, q)`: the sum over `k` of left `(p, k)` times right `(q, k)`. -/
theorem matmul_entry (l r : S1024x1024.Idx → EReal) (p q : Fin 1024) :
    matmul (F := Ideal) (φ₁ := .bf16) (φ₂ := .bf16) dot_S1024x1024_S1024x1024_S1024x1024_1_1_0_0_n_n none l r (constant S1024x1024 .f32 0x00000000#32) (ix2 p q)
      = ∑ k : Fin 1024, l (ix2 p k) * r (ix2 q k) := by
  simp only [matmul]
  rw [Ideal.matmul_constant_zero_apply, ← Equiv.sum_comp (contrEquiv1 dot_S1024x1024_S1024x1024_S1024x1024_1_1_0_0_n_n 1024 rfl rfl).symm]
  refine Finset.sum_congr rfl fun k _ => ?_
  have hk := contrEquiv1_symm_val dot_S1024x1024_S1024x1024_S1024x1024_1_1_0_0_n_n 1024 rfl rfl k
  have el : dot_S1024x1024_S1024x1024_S1024x1024_1_1_0_0_n_n.lhsIdx (ix2 p q) ((contrEquiv1 dot_S1024x1024_S1024x1024_S1024x1024_1_1_0_0_n_n 1024 rfl rfl).symm k) = ix2 p k := funext fun a => Fin.ext (by
    match a with
    | ⟨0, _⟩ => exact lhs_axis0 _ _
    | ⟨1, _⟩ => exact (lhs_axis1 _ _).trans hk)
  have er : dot_S1024x1024_S1024x1024_S1024x1024_1_1_0_0_n_n.rhsIdx (ix2 p q) ((contrEquiv1 dot_S1024x1024_S1024x1024_S1024x1024_1_1_0_0_n_n 1024 rfl rfl).symm k) = ix2 q k := funext fun a => Fin.ext (by
    match a with
    | ⟨0, _⟩ => exact rhs_axis0 _ _
    | ⟨1, _⟩ => exact (rhs_axis1 _ _).trans hk)
  rw [el, er]

/-- The reset value is zero everywhere. -/
theorem reset_apply (j : S1024x1024.Idx) : k0_pay1 (F := Ideal) j = 0 := by
  unfold k0_pay1
  refine (congrFun (shapeCast_self _ _) j).trans ?_
  exact Ideal.ofBits_zero_f32

/-- The update value at `(p, q)`. -/
theorem update_apply (x0 x1 acc : S1024x1024.Idx → EReal) (p q : Fin 1024) :
    k0_pay2 (F := Ideal) x0 x1 acc (ix2 p q) = acc (ix2 p q) + prodBlock x0 x1 p q := by
  unfold k0_pay2
  refine (congrFun (shapeCast_self _ _) (ix2 p q)).trans ?_
  refine (addf_apply _ _ _).trans ?_
  refine congrArg (acc (ix2 p q) + ·) ?_
  refine (matmul_entry _ _ p q).trans ?_
  exact Finset.sum_congr rfl fun k _ => congrArg₂ (· * ·) (select_bf16 _) (select_bf16 _)

/-- The output value at `(p, q)`. -/
theorem output_apply (acc : S1024x1024.Idx → EReal) (b : S1x1024.Idx → EReal) (p q : Fin 1024) :
    k0_pay3 (F := Ideal) acc b (ix2 p q) = acc (ix2 p q) + b (ix2 (0 : Fin 1) q) := by
  unfold k0_pay3
  refine (addf_apply _ _ _).trans ?_
  refine congrArg (acc (ix2 p q) + ·) ?_
  refine (broadcastTo_apply _ _ (ix2 p q) (ix2 (0 : Fin 1) q) (fun a => ?_)).trans ?_
  · match a with
    | ⟨0, _⟩ => rfl
    | ⟨1, _⟩ => rfl
  · exact congrFun (shapeCast_self _ _) _

end Cert.KernelIdeal.Payload

end
-- ==== Proof.KernelValue.lean ====
/-
  The kernel's result array is the binarised linear map of the arrays the region finds.

  The grid has 8 × 4 × 4 points `t = 16 i + 4 j + k`: row block `i` of `x`, row block `j` of `w`, contraction quarter `k`.
  A run of four consecutive points `4 (t / 4) … 4 (t / 4) + 3` shares `(i, j)`. Along a run the scratch block is reset to
  zero and the four product blocks are added in turn, so after the run's last point its entry `(p, q)` is
  `0 + P₀ + P₁ + P₂ + P₃`, where `P_s` is the sum over the quarter `s` of the contraction positions of
  `bin (x (1024 i + p) k) * bin (w (1024 j + q) k)`. The four quarters make up the whole contraction (a sum may be
  regrouped freely over the extended reals), so the last point of the run writes back, at `(p, q)` of output block
  `(i, j)`, the whole contraction plus the bias entry `1024 j + q`: the block `(i, j)` of ONE array. The output blocks of
  the runs' last points tile the output array.
-/
import proofs.«159764_j19516331393233_1_alg».proof.Proof.Gen.KernelIdeal.Value
import proofs.«159764_j19516331393233_1_alg».proof.Proof.Pieces
import proofs.«159764_j19516331393233_1_alg».proof.Proof.Payload
import Idealize.ShloMosaic.Lib.Pipeline.Value
import Idealize.ShloMosaic.Lib.StableHlo.Run
import Mathlib.Algebra.BigOperators.Fin

noncomputable section

open scoped BigOperators

namespace Cert.KernelIdeal.Whole

open Cert.KernelIdeal Cert.KernelIdeal.Gen Idealize.ShloMosaic Idealize.ShloMosaic.TcCoe Idealize.SL.Sem
open Idealize.ShloMosaic.Pipeline (Dat)
open Idealize.ShloMosaic.ValueIdx Cert.BinLinear Cert.KernelIdeal.Payload Cert.Lib.BlockSum

variable (m : (ℓ : Loc nD τ sig) → Buf (Elt Ideal) ℓ) (ρ : Dev nD → PrngReg)

/-! ## Names for the blocks and the arrays, at their literal shapes -/

/-- The block of `x` point `t` loads, -/
abbrev xblk (c : Dev nD) (t : Fin cfg0.N) : S1024x1024.Idx → EReal := iblk m c 0 t
/-- the block of `w`, -/
abbrev wblk (c : Dev nD) (t : Fin cfg0.N) : S1024x1024.Idx → EReal := iblk m c 1 t
/-- and the piece of the bias row. -/
abbrev bblk (c : Dev nD) (t : Fin cfg0.N) : S1x1024.Idx → EReal := iblk m c 2 t
/-- The arrays as the region finds them: `x`, `w` and the bias as a row. -/
abbrev xarr (c : Dev nD) : S8192x4096.Idx → EReal := V m c main_arg0
abbrev warr (c : Dev nD) : S4096x4096.Idx → EReal := V m c main_arg1
abbrev barr (c : Dev nD) : S1x4096.Idx → EReal := V m c main_v0

/-! ## The scratch block, step by step -/

/-- At the first point of a run the scratch block becomes the zero block updated with the point's blocks. -/
theorem scratch_first (c : Dev nD) (n : ℕ) (hn : n < cfg0.N) (h0 : n % 4 = 0) :
    (outsAt0 m c n hn).2 = k0_pay2 (F := Ideal) (xblk m c ⟨n, hn⟩) (wblk m c ⟨n, hn⟩) (k0_pay1 (F := Ideal)) := by
  have h1 : ¬n % 4 = 3 := by omega
  rw [outsAt0_A m c ⟨n, hn⟩ h0 h1]
  dsimp only
  exact Pieces.scratch_A (F := Ideal) c (grid0.coords (⟨n, hn⟩ : Fin cfg0.N)) (ms0_0 (⟨n, hn⟩ : Fin cfg0.N)) (hs0_0 (⟨n, hn⟩ : Fin cfg0.N)) (ms0_1 (⟨n, hn⟩ : Fin cfg0.N)) (hs0_1 (⟨n, hn⟩ : Fin cfg0.N)) (ms0_2 (⟨n, hn⟩ : Fin cfg0.N)) (hs0_2 (⟨n, hn⟩ : Fin cfg0.N)) (ms0_3 (⟨n, hn⟩ : Fin cfg0.N)) (hs0_3 (⟨n, hn⟩ : Fin cfg0.N)) scM0_0 (Memref.isWhole_whole _) ((hcond0_0 (⟨n, hn⟩ : Fin cfg0.N)).mpr h0) (fun h => h1 ((hcond0_1 (⟨n, hn⟩ : Fin cfg0.N)).mp h)) (iblk m c 0 (⟨n, hn⟩ : Fin cfg0.N)) (iblk m c 1 (⟨n, hn⟩ : Fin cfg0.N)) (iblk m c 2 (⟨n, hn⟩ : Fin cfg0.N))

/-- At every later point of a run it becomes what the point before left, updated with the point's blocks. -/
theorem scratch_next (c : Dev nD) (n : ℕ) (hn : n < cfg0.N) (h0 : ¬n % 4 = 0) :
    (outsAt0 m c n hn).2
      = k0_pay2 (F := Ideal) (xblk m c ⟨n, hn⟩) (wblk m c ⟨n, hn⟩) (outsAt0 m c (n - 1) (Nat.lt_of_le_of_lt (Nat.sub_le _ _) hn)).2 := by
  by_cases h1 : n % 4 = 3
  · rw [outsAt0_C m c ⟨n, hn⟩ h0 h1]
    dsimp only
    exact Pieces.scratch_C (F := Ideal) c (grid0.coords (⟨n, hn⟩ : Fin cfg0.N)) (ms0_0 (⟨n, hn⟩ : Fin cfg0.N)) (hs0_0 (⟨n, hn⟩ : Fin cfg0.N)) (ms0_1 (⟨n, hn⟩ : Fin cfg0.N)) (hs0_1 (⟨n, hn⟩ : Fin cfg0.N)) (ms0_2 (⟨n, hn⟩ : Fin cfg0.N)) (hs0_2 (⟨n, hn⟩ : Fin cfg0.N)) (ms0_3 (⟨n, hn⟩ : Fin cfg0.N)) (hs0_3 (⟨n, hn⟩ : Fin cfg0.N)) scM0_0 (Memref.isWhole_whole _) (fun h => h0 ((hcond0_0 (⟨n, hn⟩ : Fin cfg0.N)).mp h)) ((hcond0_1 (⟨n, hn⟩ : Fin cfg0.N)).mpr h1) (iblk m c 0 (⟨n, hn⟩ : Fin cfg0.N)) (iblk m c 1 (⟨n, hn⟩ : Fin cfg0.N)) (iblk m c 2 (⟨n, hn⟩ : Fin cfg0.N)) (outsAt0 m c (n - 1) (Nat.lt_of_le_of_lt (Nat.sub_le _ _) hn)).2
  · rw [outsAt0_B m c ⟨n, hn⟩ h0 h1]
    dsimp only
    exact Pieces.scratch_B (F := Ideal) c (grid0.coords (⟨n, hn⟩ : Fin cfg0.N)) (ms0_0 (⟨n, hn⟩ : Fin cfg0.N)) (hs0_0 (⟨n, hn⟩ : Fin cfg0.N)) (ms0_1 (⟨n, hn⟩ : Fin cfg0.N)) (hs0_1 (⟨n, hn⟩ : Fin cfg0.N)) (ms0_2 (⟨n, hn⟩ : Fin cfg0.N)) (hs0_2 (⟨n, hn⟩ : Fin cfg0.N)) (ms0_3 (⟨n, hn⟩ : Fin cfg0.N)) (hs0_3 (⟨n, hn⟩ : Fin cfg0.N)) scM0_0 (Memref.isWhole_whole _) (fun h => h0 ((hcond0_0 (⟨n, hn⟩ : Fin cfg0.N)).mp h)) (fun h => h1 ((hcond0_1 (⟨n, hn⟩ : Fin cfg0.N)).mp h)) (iblk m c 0 (⟨n, hn⟩ : Fin cfg0.N)) (iblk m c 1 (⟨n, hn⟩ : Fin cfg0.N)) (iblk m c 2 (⟨n, hn⟩ : Fin cfg0.N)) (outsAt0 m c (n - 1) (Nat.lt_of_le_of_lt (Nat.sub_le _ _) hn)).2

/-- At the last point of a run the output block is the scratch block the point leaves plus the bias piece. -/
theorem out_last (c : Dev nD) (n : ℕ) (hn : n < cfg0.N) (h1 : n % 4 = 3) :
    (outsAt0 m c n hn).1 = k0_pay3 (F := Ideal) (outsAt0 m c n hn).2 (bblk m c ⟨n, hn⟩) := by
  have h0 : ¬n % 4 = 0 := by omega
  rw [outsAt0_C m c ⟨n, hn⟩ h0 h1]
  dsimp only
  exact (Pieces.out_C (F := Ideal) c (grid0.coords (⟨n, hn⟩ : Fin cfg0.N)) (ms0_0 (⟨n, hn⟩ : Fin cfg0.N)) (hs0_0 (⟨n, hn⟩ : Fin cfg0.N)) (ms0_1 (⟨n, hn⟩ : Fin cfg0.N)) (hs0_1 (⟨n, hn⟩ : Fin cfg0.N)) (ms0_2 (⟨n, hn⟩ : Fin cfg0.N)) (hs0_2 (⟨n, hn⟩ : Fin cfg0.N)) (ms0_3 (⟨n, hn⟩ : Fin cfg0.N)) (hs0_3 (⟨n, hn⟩ : Fin cfg0.N)) scM0_0 (Memref.isWhole_whole _) (fun h => h0 ((hcond0_0 (⟨n, hn⟩ : Fin cfg0.N)).mp h)) ((hcond0_1 (⟨n, hn⟩ : Fin cfg0.N)).mpr h1) (iblk m c 0 (⟨n, hn⟩ : Fin cfg0.N)) (iblk m c 1 (⟨n, hn⟩ : Fin cfg0.N)) (iblk m c 2 (⟨n, hn⟩ : Fin cfg0.N)) (outsAt0 m c (n - 1) (Nat.lt_of_le_of_lt (Nat.sub_le _ _) hn)).2).trans
    (congrArg (fun a => k0_pay3 (F := Ideal) a (iblk m c 2 (⟨n, hn⟩ : Fin cfg0.N)))
      (Pieces.scratch_C (F := Ideal) c (grid0.coords (⟨n, hn⟩ : Fin cfg0.N)) (ms0_0 (⟨n, hn⟩ : Fin cfg0.N)) (hs0_0 (⟨n, hn⟩ : Fin cfg0.N)) (ms0_1 (⟨n, hn⟩ : Fin cfg0.N)) (hs0_1 (⟨n, hn⟩ : Fin cfg0.N)) (ms0_2 (⟨n, hn⟩ : Fin cfg0.N)) (hs0_2 (⟨n, hn⟩ : Fin cfg0.N)) (ms0_3 (⟨n, hn⟩ : Fin cfg0.N)) (hs0_3 (⟨n, hn⟩ : Fin cfg0.N)) scM0_0 (Memref.isWhole_whole _) (fun h => h0 ((hcond0_0 (⟨n, hn⟩ : Fin cfg0.N)).mp h)) ((hcond0_1 (⟨n, hn⟩ : Fin cfg0.N)).mpr h1) (iblk m c 0 (⟨n, hn⟩ : Fin cfg0.N)) (iblk m c 1 (⟨n, hn⟩ : Fin cfg0.N)) (iblk m c 2 (⟨n, hn⟩ : Fin cfg0.N)) (outsAt0 m c (n - 1) (Nat.lt_of_le_of_lt (Nat.sub_le _ _) hn)).2).symm)

/-- The product block of point `n`'s two blocks at `(p, q)`. -/
def prodAt (c : Dev nD) (n : ℕ) (hn : n < cfg0.N) (p q : Fin 1024) : EReal :=
  prodBlock (xblk m c ⟨n, hn⟩) (wblk m c ⟨n, hn⟩) p q

/-- After the last point `n` of a run the scratch block's entry is zero plus the four product blocks' entries, in
    the order of the run's points. -/
theorem scratch_last_apply (c : Dev nD) (n : ℕ) (hn : n < cfg0.N) (h3 : n % 4 = 3) (p q : Fin 1024) :
    (outsAt0 m c n hn).2 (ix2 p q)
      = 0 + prodAt m c (n - 1 - 1 - 1) (by omega) p q + prodAt m c (n - 1 - 1) (by omega) p q
          + prodAt m c (n - 1) (by omega) p q + prodAt m c n hn p q := by
  rw [scratch_next m c n hn (by omega), update_apply,
    scratch_next m c (n - 1) _ (by omega), update_apply,
    scratch_next m c (n - 1 - 1) _ (by omega), update_apply,
    scratch_first m c (n - 1 - 1 - 1) _ (by omega), update_apply, reset_apply]
  rfl

/-! ## The blocks are pieces of the arrays -/

/-- The windows' block indices at a point, decided over the grid. -/
theorem idx_facts : ∀ t : Fin cfg0.N,
    win0_0.index t (0 : Fin 2) = t.val / 16 ∧ win0_0.index t (1 : Fin 2) = t.val % 4
    ∧ win0_1.index t (0 : Fin 2) = t.val / 4 % 4 ∧ win0_1.index t (1 : Fin 2) = t.val % 4
    ∧ win0_2.index t (0 : Fin 2) = 0 ∧ win0_2.index t (1 : Fin 2) = t.val / 4 % 4
    ∧ win0_3.index t (0 : Fin 2) = t.val / 16 ∧ win0_3.index t (1 : Fin 2) = t.val / 4 % 4 :=
  (by decide +kernel : ∀ t : Fin grid0.N, _)

/-- Entry `(p, k)` of point `t`'s block of `x` is `x` at row `1024 (t / 16) + p`, column `1024 (t % 4) + k`. -/
theorem xblk_apply (c : Dev nD) (t : Fin cfg0.N) (p k : Fin 1024) (r : Fin 8192) (kk : Fin 4096)
    (hr : r.val = t.val / 16 * 1024 + p.val) (hk : kk.val = t.val % 4 * 1024 + k.val) :
    xblk m c t (ix2 p k) = xarr m c (ix2 r kk) := by
  show iblk m c 0 t (ix2 p k) = _
  unfold iblk
  rw [View.read_apply]
  show V m c main_arg0 _ = V m c main_arg0 _
  congr 1
  funext a
  apply Fin.ext
  obtain ⟨e0, e1, -⟩ := idx_facts t
  match a with
  | ⟨0, _⟩ => show win0_0.index t (0 : Fin 2) * 1024 + 1 * p.val = r.val; rw [e0, hr]; omega
  | ⟨1, _⟩ => show win0_0.index t (1 : Fin 2) * 1024 + 1 * k.val = kk.val; rw [e1, hk]; omega

/-- Entry `(q, k)` of point `t`'s block of `w` is `w` at row `1024 (t / 4 % 4) + q`, column `1024 (t % 4) + k`. -/
theorem wblk_apply (c : Dev nD) (t : Fin cfg0.N) (q k : Fin 1024) (o : Fin 4096) (kk : Fin 4096)
    (ho : o.val = t.val / 4 % 4 * 1024 + q.val) (hk : kk.val = t.val % 4 * 1024 + k.val) :
    wblk m c t (ix2 q k) = warr m c (ix2 o kk) := by
  show iblk m c 1 t (ix2 q k) = _
  unfold iblk
  rw [View.read_apply]
  show V m c main_arg1 _ = V m c main_arg1 _
  congr 1
  funext a
  apply Fin.ext
  obtain ⟨-, -, e2, e3, -⟩ := idx_facts t
  match a with
  | ⟨0, _⟩ => show win0_1.index t (0 : Fin 2) * 1024 + 1 * q.val = o.val; rw [e2, ho]; omega
  | ⟨1, _⟩ => show win0_1.index t (1 : Fin 2) * 1024 + 1 * k.val = kk.val; rw [e3, hk]; omega

/-- Entry `q` of point `t`'s piece of the bias row is the bias at `1024 (t / 4 % 4) + q`. -/
theorem bblk_apply (c : Dev nD) (t : Fin cfg0.N) (q : Fin 1024) (o : Fin 4096)
    (ho : o.val = t.val / 4 % 4 * 1024 + q.val) :
    bblk m c t (ix2 (0 : Fin 1) q) = barr m c (ix2 (0 : Fin 1) o) := by
  show iblk m c 2 t (ix2 (0 : Fin 1) q) = _
  unfold iblk
  rw [View.read_apply]
  show V m c main_v0 _ = V m c main_v0 _
  congr 1
  funext a
  apply Fin.ext
  obtain ⟨-, -, -, -, e4, e5, -⟩ := idx_facts t
  match a with
  | ⟨0, _⟩ => show win0_2.index t (0 : Fin 2) * 1 + 1 * 0 = 0; rw [e4]
  | ⟨1, _⟩ => show win0_2.index t (1 : Fin 2) * 1024 + 1 * q.val = o.val; rw [e5, ho]; omega

/-- So the product block of a point in quarter `s` of its run is the sum over that quarter of the contraction. -/
theorem prod_quarter (c : Dev nD) (n : ℕ) (hn : n < cfg0.N) (s : Fin 4) (hs : n % 4 = s.val) (p q : Fin 1024)
    (r : Fin 8192) (o : Fin 4096) (hr : r.val = n / 16 * 1024 + p.val) (ho : o.val = n / 4 % 4 * 1024 + q.val) :
    prodAt m c n hn p q
      = ∑ k : Fin 1024, bin (xarr m c (ix2 r (blockRow (N := 4096) (a := 4) (b := 1024) rfl s k)))
          * bin (warr m c (ix2 o (blockRow (N := 4096) (a := 4) (b := 1024) rfl s k))) := by
  unfold prodAt prodBlock
  refine Finset.sum_congr rfl fun k _ => ?_
  rw [xblk_apply m c ⟨n, hn⟩ p k r (blockRow (N := 4096) (a := 4) (b := 1024) rfl s k) hr (by rw [blockRow_val]; show _ = n % 4 * 1024 + _; rw [hs]),
    wblk_apply m c ⟨n, hn⟩ q k o (blockRow (N := 4096) (a := 4) (b := 1024) rfl s k) ho (by rw [blockRow_val]; show _ = n % 4 * 1024 + _; rw [hs])]

/-! ## What a run's last point writes back -/

/-- At the last point `n` of a run the output block's entry `(p, q)` is the binarised linear map's entry at row
    `1024 (n / 16) + p`, column `1024 (n / 4 % 4) + q`. -/
theorem out_entry (c : Dev nD) (n : ℕ) (hn : n < cfg0.N) (h3 : n % 4 = 3) (p q : Fin 1024) (r : Fin 8192) (o : Fin 4096)
    (hr : r.val = n / 16 * 1024 + p.val) (ho : o.val = n / 4 % 4 * 1024 + q.val) :
    (outsAt0 m c n hn).1 (ix2 p q) = entry (xarr m c) (warr m c) (barr m c) r o := by
  have hN : cfg0.N = 128 := N_0
  rw [out_last m c n hn h3, output_apply, scratch_last_apply m c n hn h3 p q, bblk_apply m c ⟨n, hn⟩ q o ho]
  unfold entry
  refine congrArg (· + barr m c (ix2 (0 : Fin 1) o)) ?_
  rw [sum_fin_blocks (N := 4096) (a := 4) (b := 1024) rfl, Fin.sum_univ_four, zero_add,
    prod_quarter m c (n - 1 - 1 - 1) _ 0 (by show _ = 0; omega) p q r o (by omega) (by omega),
    prod_quarter m c (n - 1 - 1) _ 1 (by show _ = 1; omega) p q r o (by omega) (by omega),
    prod_quarter m c (n - 1) _ 2 (by show _ = 2; omega) p q r o (by omega) (by omega),
    prod_quarter m c n hn 3 (by show _ = 3; omega) p q r o hr ho]

/-- What a run's last point writes back is its block of the binarised linear map of the arrays. -/
theorem flushed_eq (c : Dev nD) (t : Fin cfg0.N) (hf : (cfg0.win 3).flush t = true) :
    (dats m 0 c).flushed 3 t
      = ((cfg0.win 3).blk t).view.read (Elt Ideal) (result (xarr m c) (warr m c) (barr m c)) := by
  have h3 : t.val % 4 = 3 := (flush0_3 t).mp hf
  have hN : cfg0.N = 128 := N_0
  have ht := t.isLt
  rw [Cert.KernelIdeal.Value.flushed3]
  funext j
  obtain ⟨p, q, rfl⟩ : ∃ (p q : Fin 1024), j = ix2 p q := ⟨j 0, j 1, eq_ix2 j⟩
  obtain ⟨-, -, -, -, -, -, e6, e7⟩ := idx_facts t
  show (outsAt0 m c t.val t.isLt).1 (ix2 p q)
    = result (xarr m c) (warr m c) (barr m c) (((cfg0.win 3).blk t).view.emb (ix2 p q))
  refine (out_entry m c t.val t.isLt h3 p q ⟨t.val / 16 * 1024 + p.val, by omega⟩
    ⟨t.val / 4 % 4 * 1024 + q.val, by omega⟩ rfl rfl).trans ?_
  unfold result
  refine congrArg₂ (entry (xarr m c) (warr m c) (barr m c)) (Fin.ext ?_) (Fin.ext ?_)
  · show t.val / 16 * 1024 + p.val = win0_3.index t (0 : Fin 2) * 1024 + 1 * p.val
    rw [e6]; omega
  · show t.val / 4 % 4 * 1024 + q.val = win0_3.index t (1 : Fin 2) * 1024 + 1 * q.val
    rw [e7]; omega

/-! ## The output blocks tile the output array -/

/-- An entry of the output array is in point `t`'s block when each coordinate is in the block's range on its axis. -/
theorem mem_blk (t : Fin cfg0.N) (i : S8192x4096.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v1).slice (win0_3.rect t)).set ↔ _
  rw [View.set_slice_whole, Rect.mem_set_unit]
  exact Iff.rfl

/-- Entry `(r, o)` lies in the block written back by the last point of run `(r / 1024, o / 1024)`. -/
theorem cover (i : S8192x4096.Idx) :
    ∃ t : Fin cfg0.N, (cfg0.win 3).flush t = true ∧ i ∈ ((cfg0.win 3).blk t).view.set := by
  have hN : cfg0.N = 128 := N_0
  have h0 : (i 0).val < 8192 := (i 0).isLt
  have h1 : (i 1).val < 4096 := (i 1).isLt
  have hb : (i 0).val / 1024 * 16 + (i 1).val / 1024 * 4 + 3 < cfg0.N := by omega
  refine ⟨⟨_, hb⟩, (flush0_3 _).mpr (by show ((i 0).val / 1024 * 16 + (i 1).val / 1024 * 4 + 3) % 4 = 3; omega), ?_⟩
  rw [mem_blk]
  obtain ⟨-, -, -, -, -, -, e6, e7⟩ := idx_facts ⟨_, hb⟩
  intro a
  match a with
  | ⟨0, _⟩ =>
    show win0_3.index ⟨_, hb⟩ (0 : Fin 2) * 1024 ≤ (i 0).val ∧ (i 0).val < win0_3.index ⟨_, hb⟩ (0 : Fin 2) * 1024 + 1024
    rw [e6]
    show ((i 0).val / 1024 * 16 + (i 1).val / 1024 * 4 + 3) / 16 * 1024 ≤ (i 0).val
      ∧ (i 0).val < ((i 0).val / 1024 * 16 + (i 1).val / 1024 * 4 + 3) / 16 * 1024 + 1024
    omega
  | ⟨1, _⟩ =>
    show win0_3.index ⟨_, hb⟩ (1 : Fin 2) * 1024 ≤ (i 1).val ∧ (i 1).val < win0_3.index ⟨_, hb⟩ (1 : Fin 2) * 1024 + 1024
    rw [e7]
    show ((i 0).val / 1024 * 16 + (i 1).val / 1024 * 4 + 3) / 4 % 4 * 1024 ≤ (i 1).val
      ∧ (i 1).val < ((i 0).val / 1024 * 16 + (i 1).val / 1024 * 4 + 3) / 4 % 4 * 1024 + 1024
    omega

/-- So after the run the output array is the binarised linear map of the arrays the region found. -/
theorem final (c : Dev nD) : (dats m 0 c).arrAt 3 cfg0.N = result (xarr m c) (warr m c) (barr m c) :=
  (dats m 0 c).arrAt_eq_of_cover 3 (result (xarr m c) (warr m c) (barr m c)) (flushed_eq m c) cover

/-! ## The arrays the region finds are the arguments -/

/-- The bias row the region finds is the bias argument reshaped: entry `(0, o)` is the bias at `o`. -/
theorem barr_eq (c : Dev nD) : barr m c = fun i => m ((c : Thread nD τ).loc main_arg2) (ix1 (i 1)) := by
  have e : (V m c main_v0 : S1x4096.Idx → EReal)
      = shapeCast S1x4096 (m ((c : Thread nD τ).loc main_arg2)) shapeCasts_S4096_S1x4096 := by
    dsimp only [V, hostOps0]; after_results; rfl
  show (V m c main_v0 : S1x4096.Idx → EReal) = _
  rw [e]
  funext i
  exact shapeCast_apply _ _ i (ix1 (i 1)) (by
    rw [Shape.rowMajor_val_one, Shape.rowMajor_val_two]
    have h0 : (i 0).val < 1 := (i 0).isLt
    show (i 1).val = (i 0).val * 4096 + (i 1).val
    omega)

/-- THE KERNEL'S RUN, read: the result array ends at the binarised linear map of the three arguments, which are
    left as they were. -/
theorem run : θ_run defs (onTc (τ := τ) (main (F := Ideal))) ⟨m, fun _ => 0, ρ⟩ fun r => ∀ c : Dev nD,
      r.2.mem ((c : Thread nD τ).loc main_v1)
        = result (m ((c : Thread nD τ).loc main_arg0)) (m ((c : Thread nD τ).loc main_arg1))
            (fun i => m ((c : Thread nD τ).loc main_arg2) (ix1 (i 1)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans ((final m c).trans (by
      show result (V m c main_arg0) (V m c main_arg1) (barr m c) = _
      rw [V_main_arg0, V_main_arg1, barr_eq])), (h c).2⟩)
    (Cert.KernelIdeal.Value.run_blocks m ρ)

end Cert.KernelIdeal.Whole

end
-- ==== Proof.RefValue.lean ====
/-
  The reference computes the binarised linear map.

  Read one operation at a time, the reference's result at `(n, o)` is the sum over `k` of the product of two selects
  — `1.0` or `-1.0` by "above zero" of `x n k` and of `w o k` — plus the bias entry `o`, spread first over a row and then
  over the rows. Each select is `bin`, so the result array is `result x w` of the bias read as a row.
-/
import proofs.«159764_j19516331393233_1_alg».proof.Proof.Gen.ReferenceIdeal.Read
import proofs.«159764_j19516331393233_1_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx
open Cert.BinLinear

/-- The left operand of the contraction is read at row `n`, position `k`; -/
theorem lidx_eq (n : Fin 8192) (o : Fin 4096) (k : Fin 4096) : lidx_main_v6 (ix2 n o) k = ix2 n k :=
  funext fun a => Fin.ext (by match a with | ⟨0, _⟩ => rfl | ⟨1, _⟩ => rfl)

/-- the right operand at row `o`, position `k`; -/
theorem ridx_eq (n : Fin 8192) (o : Fin 4096) (k : Fin 4096) : ridx_main_v6 (ix2 n o) k = ix2 o k :=
  funext fun a => Fin.ext (by match a with | ⟨0, _⟩ => rfl | ⟨1, _⟩ => rfl)

/-- and the bias, spread twice, at entry `o`. -/
theorem bidx_eq (n : Fin 8192) (o : Fin 4096) : idx_main_v7 (idx_main_v8 (ix2 n o)) = ix1 o :=
  funext fun a => Fin.ext (by match a with | ⟨0, _⟩ => rfl)

/-- The binarised `x` at an entry. -/
theorem bx_apply (x0 : S8192x4096.Idx → EReal) (j : S8192x4096.Idx) : val_main_v2 (F := Ideal) x0 j = bin (x0 j) := by
  rw [val_main_v2_apply, val_main_v1_apply, val_main_v0_apply, val_main_call0_v0_apply, val_main_call0_v1_apply,
    val_main_cst_apply, val_main_cst_0_apply, val_main_cst_1_apply]
  exact select_f32 (x0 j)

/-- The binarised `w` at an entry. -/
theorem bw_apply (x1 : S4096x4096.Idx → EReal) (j : S4096x4096.Idx) : val_main_v5 (F := Ideal) x1 j = bin (x1 j) := by
  rw [val_main_v5_apply, val_main_v4_apply, val_main_v3_apply, val_main_call1_v0_apply, val_main_call1_v1_apply,
    val_main_cst_2_apply, val_main_cst_3_apply, val_main_cst_4_apply]
  exact select_f32 (x1 j)

/-- The reference's result array is the binarised linear map of its three arguments. -/
theorem ref_eq (x0 : S8192x4096.Idx → EReal) (x1 : S4096x4096.Idx → EReal) (x2 : S4096.Idx → EReal) :
    val_main_v9 (F := Ideal) x0 x1 x2 = result x0 x1 (fun i => x2 (ix1 (i 1))) := by
  funext i
  obtain ⟨n, o, rfl⟩ : ∃ (n : Fin 8192) (o : Fin 4096), i = ix2 n o := ⟨i 0, i 1, eq_ix2 i⟩
  rw [val_main_v9_apply, val_main_v6_apply, val_main_v8_apply, val_main_v7_apply, bidx_eq]
  show (∑ k : Fin 4096, _) + _ = (∑ k : Fin 4096, _) + _
  refine congrArg (· + x2 (ix1 o)) (Finset.sum_congr rfl fun k _ => ?_)
  rw [bx_apply, bw_apply, lidx_eq, ridx_eq]

end Cert.ReferenceIdeal.RefValue

end
-- ==== Proof.lean ====
/-
  The binarised linear layer `y = bin(x) · bin(w)ᵀ + bias` over `x : [8192, 4096]`, `w : [4096, 4096]`, `bias : [4096]`,
  where `bin` is `+1` above zero and `-1` otherwise: a tiled kernel against the plain formula.

  Over the extended reals both programs compute, at `(n, o)`, `(∑ k, bin (x n k) * bin (w o k)) + bias o`.
  * The reference selects between the f32 words of `1.0` and `-1.0`, contracts the second axes of the two selected
    arrays in one product, and adds the bias spread over the rows (Proof/RefValue.lean).
  * The kernel selects between the bf16 words of the same two numbers (a float format changes nothing here), cuts the
    contraction into four quarters of 1024 positions, and for each 1024 × 1024 output block resets a scratch block at
    the first quarter, adds each quarter's product block to it, and at the last quarter writes the scratch block plus
    the bias piece back (Proof/Pieces.lean: the body's stores as terms; Proof/Payload.lean: those terms at an entry;
    Proof/KernelValue.lean: the four quarters of a run, and the output blocks tiling the array).
  * The two agree because a sum over 4096 positions is the sum of its four quarters' sums in any grouping
    (Proof/Spec.lean, over Proof/LibBlockSum.lean): addition of extended reals is commutative and associative also at
    the infinities, so the inputs' finiteness is never used.
  The three frames are the generated runs; the idealization rewrote nothing, so `preserves` is `True`.
-/
import proofs.«159764_j19516331393233_1_alg».proof.Defs
import proofs.«159764_j19516331393233_1_alg».proof.Proof.Gen.Kernel
import proofs.«159764_j19516331393233_1_alg».proof.Proof.Gen.Kernel.Skeleton
import proofs.«159764_j19516331393233_1_alg».proof.Proof.Gen.Kernel.Launch
import proofs.«159764_j19516331393233_1_alg».proof.Proof.Gen.Kernel.Points
import proofs.«159764_j19516331393233_1_alg».proof.Proof.Gen.Kernel.Frame
import proofs.«159764_j19516331393233_1_alg».proof.Proof.Gen.KernelIdeal
import proofs.«159764_j19516331393233_1_alg».proof.Proof.Gen.KernelIdeal.Skeleton
import proofs.«159764_j19516331393233_1_alg».proof.Proof.Gen.KernelIdeal.Launch
import proofs.«159764_j19516331393233_1_alg».proof.Proof.Gen.KernelIdeal.Points
import proofs.«159764_j19516331393233_1_alg».proof.Proof.Gen.KernelIdeal.Frame
import proofs.«159764_j19516331393233_1_alg».proof.Proof.Gen.ReferenceIdeal
import proofs.«159764_j19516331393233_1_alg».proof.Proof.Gen.Pre_finite_inputs
import proofs.«159764_j19516331393233_1_alg».proof.Proof.Gen.KernelIdeal.Value
import proofs.«159764_j19516331393233_1_alg».proof.Proof.Gen.ReferenceIdeal.Run
import proofs.«159764_j19516331393233_1_alg».proof.Proof.Gen.ReferenceIdeal.Read
import proofs.«159764_j19516331393233_1_alg».proof.Proof.KernelValue
import proofs.«159764_j19516331393233_1_alg».proof.Proof.RefValue
import Idealize.ShloMosaic.Adequacy
import Idealize.ShloMosaic.Init

noncomputable section

namespace Cert.Proof

open Idealize.ShloMosaic Idealize.SL.Sem

/-- The word-level kernel runs and leaves its arguments alone: the generated frame. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference's frame is its generated run with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From arguments that agree, the kernel's result array and the reference's both end at the binarised linear map of
    the arguments: ONE function of them. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, Cert.ReferenceIdeal.RefValue.ref_eq, (hagree c).1, (hagree c).2.1,
    (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
